-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512x512 : Shape := ⟨3, ![128, 512, 512]⟩
abbrev S128x512 : Shape := ⟨2, ![128, 512]⟩
abbrev S128x1 : Shape := ⟨2, ![128, 1]⟩
abbrev S1000x512 : Shape := ⟨2, ![1000, 512]⟩
abbrev S_ : Shape := ⟨0, ![]⟩

class Facts : Prop where
  bcast_S_S128x512x512 : S_.BroadcastsInDim S128x512x512 (![] : Fin 0 → Fin S128x512x512.rank)
  reducesTo_S128x512x512_S_d0_1_2 : S128x512x512.ReducesTo [0, 1, 2] S_
  h_S_ : 0 < S_.numel
  bcast_S_S1000x512 : S_.BroadcastsInDim S1000x512 (![] : Fin 0 → Fin S1000x512.rank)
  reducesTo_S1000x512_S_d0_1 : S1000x512.ReducesTo [0, 1] S_
  bcast_S_S128x512 : S_.BroadcastsInDim S128x512 (![] : Fin 0 → Fin S128x512.rank)
  reducesTo_S128x512_S_d0_1 : S128x512.ReducesTo [0, 1] S_

variable [Facts]

def fn {F : FTy → Type} [FloatOps F] (main_arg0 : FVec F S128x512x512 .f32) (main_arg1 : IVec S128x512 32) (main_arg2 : IVec S128x1 32) (main_arg3 : FVec F S1000x512 .f32) : IVec S_ 1 :=
  let main_v0 : FVec F S128x512x512 .f32 := Host.absf main_arg0
  let main_cst : FVec F S_ .f32 := constant S_ .f32 0x7F800000#32
  let main_v1 : FVec F S128x512x512 .f32 := broadcastInDim S128x512x512 ![] bcast_S_S128x512x512 main_cst
  let main_v2 : IVec S128x512x512 1 := cmpf .olt main_v0 main_v1
  let main_c : IVec S_ 1 := constantI S_ 1 1#1
  let main_v3 : IVec S_ 1 := (fun x v => Host.reduce IntOp.andi x v reducesTo_S128x512x512_S_d0_1_2 h_S_) main_v2 main_c
  let main_v4 : FVec F S1000x512 .f32 := Host.absf main_arg3
  let main_cst_0 : FVec F S_ .f32 := constant S_ .f32 0x7F800000#32
  let main_v5 : FVec F S1000x512 .f32 := broadcastInDim S1000x512 ![] bcast_S_S1000x512 main_cst_0
  let main_v6 : IVec S1000x512 1 := cmpf .olt main_v4 main_v5
  let main_c_1 : IVec S_ 1 := constantI S_ 1 1#1
  let main_v7 : IVec S_ 1 := (fun x v => Host.reduce IntOp.andi x v reducesTo_S1000x512_S_d0_1 h_S_) main_v6 main_c_1
  let main_v8 : IVec S_ 1 := andi main_v3 main_v7
  let main_c_2 : IVec S_ 32 := constantI S_ 32 0#32
  let main_v9 : IVec S128x512 32 := broadcastInDim S128x512 ![] bcast_S_S128x512 main_c_2
  let main_v10 : IVec S128x512 1 := cmpi .sge main_arg1 main_v9
  let main_c_3 : IVec S_ 32 := constantI S_ 32 1000#32
  let main_v11 : IVec S128x512 32 := broadcastInDim S128x512 ![] bcast_S_S128x512 main_c_3
  let main_v12 : IVec S128x512 1 := cmpi .slt main_arg1 main_v11
  let main_v13 : IVec S128x512 1 := andi main_v10 main_v12
  let main_c_4 : IVec S_ 1 := constantI S_ 1 1#1
  let main_v14 : IVec S_ 1 := (fun x v => Host.reduce IntOp.andi x v reducesTo_S128x512_S_d0_1 h_S_) main_v13 main_c_4
  let main_v15 : IVec S_ 1 := andi main_v8 main_v14
  main_v15
-- ==== Kernel.lean ====
abbrev S128x512x512 : Shape := ⟨3, ![128, 512, 512]⟩
abbrev S128x512 : Shape := ⟨2, ![128, 512]⟩
abbrev S128x1 : Shape := ⟨2, ![128, 1]⟩
abbrev S1000x512 : Shape := ⟨2, ![1000, 512]⟩
abbrev S65536x1 : Shape := ⟨2, ![65536, 1]⟩
abbrev S65536x512 : Shape := ⟨2, ![65536, 512]⟩
abbrev S_ : Shape := ⟨0, ![]⟩
abbrev S1024x512 : Shape := ⟨2, ![1024, 512]⟩
abbrev S512 : Shape := ⟨1, ![512]⟩
abbrev S1 : Shape := ⟨1, ![1]⟩
abbrev S2048x1 : Shape := ⟨2, ![2048, 1]⟩
abbrev S2048x512 : Shape := ⟨2, ![2048, 512]⟩
abbrev S2048x1024 : Shape := ⟨2, ![2048, 1024]⟩

abbrev nBuf : Space → Nat
  | .hbm => 17
  | .vmem => 7
  | .smem => 0
  | _ => 0

abbrev bufTy : (tb : Table) → Fin (tcTables nBuf tb) → BufTy
  | .hbm, ⟨0, _⟩ => ⟨S128x512x512, .f32⟩
  | .hbm, ⟨1, _⟩ => ⟨S128x512, .i32⟩
  | .hbm, ⟨2, _⟩ => ⟨S128x1, .i32⟩
  | .hbm, ⟨3, _⟩ => ⟨S1000x512, .f32⟩
  | .hbm, ⟨4, _⟩ => ⟨S65536x1, .i32⟩
  | .hbm, ⟨5, _⟩ => ⟨S65536x512, .f32⟩
  | .hbm, ⟨6, _⟩ => ⟨S_, .i32⟩
  | .hbm, ⟨7, _⟩ => ⟨S_, .f32⟩
  | .hbm, ⟨8, _⟩ => ⟨S1024x512, .f32⟩
  | .hbm, ⟨9, _⟩ => ⟨S_, .f32⟩
  | .hbm, ⟨10, _⟩ => ⟨S512, .f32⟩
  | .hbm, ⟨11, _⟩ => ⟨S_, .i32⟩
  | .hbm, ⟨12, _⟩ => ⟨S1, .i32⟩
  | .hbm, ⟨13, _⟩ => ⟨S1024x512, .f32⟩
  | .hbm, ⟨14, _⟩ => ⟨S1024x512, .bf16⟩
  | .hbm, ⟨15, _⟩ => ⟨S65536x512, .f32⟩
  | .hbm, ⟨16, _⟩ => ⟨S128x512x512, .f32⟩
  | .local _ .vmem, ⟨0, _⟩ => ⟨S2048x1, .i32⟩
  | .local _ .vmem, ⟨1, _⟩ => ⟨S2048x1, .i32⟩
  | .local _ .vmem, ⟨2, _⟩ => ⟨S2048x512, .f32⟩
  | .local _ .vmem, ⟨3, _⟩ => ⟨S2048x512, .f32⟩
  | .local _ .vmem, ⟨4, _⟩ => ⟨S1024x512, .bf16⟩
  | .local _ .vmem, ⟨5, _⟩ => ⟨S2048x512, .f32⟩
  | .local _ .vmem, ⟨6, _⟩ => ⟨S2048x512, .f32⟩
  | _, _ => ⟨S128x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S128x512_S65536x1 : S128x512.ShapeCasts S65536x1
  shapeCasts_S128x512x512_S65536x512 : S128x512x512.ShapeCasts S65536x512
  pads_S1000x512_S1024x512_0240_000 : S1000x512.Pads (![0, 0] : Fin 2 → Nat) ![24, 0] ![0, 0] S1024x512
  h_S_ : 0 < S_.numel
  bcast_S_S512 : S_.BroadcastsInDim S512 (![] : Fin 0 → Fin S512.rank)
  bcast_S_S1 : S_.BroadcastsInDim S1 (![] : Fin 0 → Fin S1.rank)
  bitsLt_bf16_f32 : FTy.bits .bf16 < FTy.bits .f32
  iota_S2048x1024_d1_w32 : S2048x1024.Iotas .tc 32 [1]
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x1024 : S2048x1.Broadcasts S2048x1024
  natLt_1_32 : 1 < 32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S65536x512_S128x512x512 : S65536x512.ShapeCasts S128x512x512
  scatter_S1024x512_S1_S512_0_0_0_0_wf : ScatterDims.WF S1024x512 S1 S512 [0] [0] [0] 0
  dot_S2048x1024_S1024x512_S2048x512_1_0_0_1_n_n_wf : DotDims.WF S2048x1024 S1024x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S65536x1.size a
  hwx0_0 : ∀ i : grid0.Coords, EltTy.bits .i32 = 32 ∨ (Rect.block (s := S65536x1) S2048x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S65536x512.size a
  hwx0_1 : ∀ i : grid0.Coords, EltTy.bits .f32 = 32 ∨ (Rect.block (s := S65536x512) S2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x512.size a
  hwx0_2 : ∀ i : grid0.Coords, EltTy.bits .bf16 = 32 ∨ (Rect.block (s := S1024x512) S1024x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S65536x512.size a
  hwx0_3 : ∀ i : grid0.Coords, EltTy.bits .f32 = 32 ∨ (Rect.block (s := S65536x512) S2048x512.size (cc0_transform_3 i) (hinb0_3 i)).WholeWords (EltTy.packing .f32)

variable [Facts₀]

def scatter_S1024x512_S1_S512_0_0_0_0 : ScatterDims S1024x512 S1 S512 where
  updateWindowDims := [0]
  insertedWindowDims := [0]
  scatterDimsToOperandDims := [0]
  indexVectorDim := 0
  wf := scatter_S1024x512_S1_S512_0_0_0_0_wf
def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf

abbrev win0_0 : Pipeline.Window sig grid0 :=
  Pipeline.Window.ofSpec (Memref.whole main_v0) S2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x512x512 : Shape := ⟨3, ![128, 512, 512]⟩
abbrev S128x512 : Shape := ⟨2, ![128, 512]⟩
abbrev S128x1 : Shape := ⟨2, ![128, 1]⟩
abbrev S1000x512 : Shape := ⟨2, ![1000, 512]⟩
abbrev S_ : Shape := ⟨0, ![]⟩
abbrev S128x512x1 : Shape := ⟨3, ![128, 512, 1]⟩

abbrev nBuf : Space → Nat
  | .hbm => 22
  | .vmem => 0
  | .smem => 0
  | _ => 0

abbrev bufTy : (tb : Table) → Fin (tcTables nBuf tb) → BufTy
  | .hbm, ⟨0, _⟩ => ⟨S128x512x512, .f32⟩
  | .hbm, ⟨1, _⟩ => ⟨S128x512, .i32⟩
  | .hbm, ⟨2, _⟩ => ⟨S128x1, .i32⟩
  | .hbm, ⟨3, _⟩ => ⟨S1000x512, .f32⟩
  | .hbm, ⟨4, _⟩ => ⟨S_, .i32⟩
  | .hbm, ⟨5, _⟩ => ⟨S128x512, .i32⟩
  | .hbm, ⟨6, _⟩ => ⟨S128x512, .i1⟩
  | .hbm, ⟨7, _⟩ => ⟨S_, .i32⟩
  | .hbm, ⟨8, _⟩ => ⟨S128x512, .i32⟩
  | .hbm, ⟨9, _⟩ => ⟨S128x512, .i32⟩
  | .hbm, ⟨10, _⟩ => ⟨S128x512, .i32⟩
  | .hbm, ⟨11, _⟩ => ⟨S128x512x1, .i32⟩
  | .hbm, ⟨12, _⟩ => ⟨S128x512x512, .f32⟩
  | .hbm, ⟨13, _⟩ => ⟨S_, .i32⟩
  | .hbm, ⟨14, _⟩ => ⟨S128x512, .i32⟩
  | .hbm, ⟨15, _⟩ => ⟨S128x512, .i1⟩
  | .hbm, ⟨16, _⟩ => ⟨S128x512x1, .i1⟩
  | .hbm, ⟨17, _⟩ => ⟨S_, .f32⟩
  | .hbm, ⟨18, _⟩ => ⟨S128x512x512, .i1⟩
  | .hbm, ⟨19, _⟩ => ⟨S128x512x512, .f32⟩
  | .hbm, ⟨20, _⟩ => ⟨S128x512x512, .f32⟩
  | .hbm, ⟨21, _⟩ => ⟨S128x512x512, .f32⟩
  | _, _ => ⟨S128x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]

class Facts₀ : Prop where
  bcast_S_S128x512 : S_.BroadcastsInDim S128x512 (![] : Fin 0 → Fin S128x512.rank)
  bcast_S128x512_S128x512x1_0_1 : S128x512.BroadcastsInDim S128x512x1 (![0, 1] : Fin 2 → Fin S128x512x1.rank)
  bcast_S128x512x1_S128x512x512_0_1_2 : S128x512x1.BroadcastsInDim S128x512x512 (![0, 1, 2] : Fin 3 → Fin S128x512x512.rank)
  bcast_S_S128x512x512 : S_.BroadcastsInDim S128x512x512 (![] : Fin 0 → Fin S128x512x512.rank)
  gather_S1000x512_S128x512x1_S128x512x512_2_0_n_n_0_2_1512_wf : GatherDims.WF S1000x512 S128x512x1 S128x512x512 [2] [0] [] [0] [] 2 ![1, 512]

variable [Facts₀]

def gather_S1000x512_S128x512x1_S128x512x512_2_0_n_n_0_2_1512 : GatherDims S1000x512 S128x512x1 S128x512x512 where
  offsetDims := [2]
  collapsedSliceDims := [0]
  operandBatchingDims := []
  startIndicesBatchingDims := []
  startIndexMap := [0]
  indexVectorDim := 2
  sliceSizes := ![1, 512]
  wf := gather_S1000x512_S128x512x1_S128x512x512_2_0_n_n_0_2_1512_wf

class Facts : Prop extends Facts₀ where

variable [Facts]
-- ==== Proof.CategoryRange.lean ====
/-
  The categories lie in range. The precondition's last conjunct is the conjunction, over every index of the
  [128, 512] array of category words, of (word ≥ 0 signed) and (word < 1000 signed). If the whole precondition
  evaluates to 1, then so does that conjunct (a conjunction of one-bit words is 1 only when both sides are), so
  the conjunction over all indices is 1, so each index's bit is 1, so both comparisons at that index are 1; the
  two constants are broadcast scalars, read as 0 and 1000 at every index. Hence 0 ≤ word < 1000 read signed.
-/
import proofs.«422520_j9019431321846_3_alg».proof.Pre_finite_inputs
import Idealize.ShloMosaic.Lib.ReduceAll
import Idealize.ShloMosaic.Lib.StableHlo.Predicate

namespace Cert.CategoryRange

open Idealize.ShloMosaic

/-- The rank-0 shape has one index. -/
instance : Subsingleton Cert.Pre_finite_inputs.S_.Idx := ⟨fun a b => funext fun d => d.elim0⟩

theorem of_pre {F : FTy → Type} [FloatOps F] [Cert.Pre_finite_inputs.Facts]
    (a0 : FVec F Cert.Pre_finite_inputs.S128x512x512 .f32) (a1 : IVec Cert.Pre_finite_inputs.S128x512 32)
    (a2 : IVec Cert.Pre_finite_inputs.S128x1 32) (a3 : FVec F Cert.Pre_finite_inputs.S1000x512 .f32)
    (h : Cert.Pre_finite_inputs.fn (F := F) a0 a1 a2 a3 = fun _ => 1#1) :
    ∀ i, 0 ≤ (a1 i).toInt ∧ (a1 i).toInt < 1000 := by
  intro i
  have h0 := congrFun h (fun a => a.elim0)
  dsimp only [Cert.Pre_finite_inputs.fn] at h0
  -- the whole precondition is a conjunction whose right side is the conjunction over all indices
  obtain ⟨-, h14⟩ := IntOp.andi_eq_one.1 h0
  -- every index's bit is 1
  have hi := Host.reduce_andi_all _ _ _ _ _ h14 i
  -- the bit is the conjunction of the two comparisons
  obtain ⟨hge, hlt⟩ := IntOp.andi_eq_one.1 hi
  -- a comparison that is 1 is the inequality of its operands read signed; the broadcast constants are 0 and 1000
  have hge' := IntOp.cmpi_sge.1 hge
  have hlt' := IntOp.cmpi_slt.1 hlt
  rw [StableHlo.Predicate.bcast_scalar _ Cert.Pre_finite_inputs.Facts.h_S_] at hge' hlt'
  exact ⟨hge', hlt'⟩

/-- info: 'Cert.CategoryRange.of_pre' depends on axioms: [propext, Classical.choice, Quot.sound] -/
#guard_msgs (whitespace := lax) in #print axioms of_pre

end Cert.CategoryRange
-- ==== Proof.Select.lean ====
/-
  The arithmetic of one row of the kernel body, free of any program.

  A category word w in [0, 1000) is clamped to itself, then 0 is sent to 1000: the selected table row is
  `rowWord w` (1000 for the padding category, w otherwise).  The row of the one-hot matrix for it has a 1 at
  column `rowWord w` and 0 elsewhere, so its product with a table with 1024 rows picks that row of the table:
  a sum over the 1024 columns with a single nonzero term.
-/
import Idealize.ShloMosaic.Lib.ValueIdx
import Idealize.ShloMosaic.PureOps.Ideal.Laws

noncomputable section

namespace Cert.Category

open Idealize.ShloMosaic Idealize.ShloMosaic.ValueIdx
open scoped BigOperators

/-- The table row a category selects: row 1000 (the row of ones) for category 0, the category's own row otherwise. -/
def rowWord (w : BitVec 32) : BitVec 32 := if w = 0#32 then 1000#32 else w

/-- A word whose signed value lies in [0, 1000) is that natural number. -/
theorem toNat_of_range {w : BitVec 32} (h0 : 0 ≤ w.toInt) (h1 : w.toInt < 1000) : w.toNat < 1000 := by
  have := BitVec.toInt_eq_toNat_cond (x := w)
  split at this <;> omega

/-- The selected row is a row of the 1024-row table. -/
theorem rowWord_lt {w : BitVec 32} (h0 : 0 ≤ w.toInt) (h1 : w.toInt < 1000) : (rowWord w).toNat < 1024 := by
  unfold rowWord
  split
  · decide
  · have := toNat_of_range h0 h1; omega

/-- The kernel's clamp to [0, 1000] and its redirection of 0 to 1000, on a word already in [0, 1000). -/
theorem clamp_select {w : BitVec 32} (h0 : 0 ≤ w.toInt) (h1 : w.toInt < 1000) :
    Scalar.select (IntOp.cmpi .eq (IntOp.minsi 1000#32 (IntOp.maxsi 0#32 w)) 0#32) 1000#32
      (IntOp.minsi 1000#32 (IntOp.maxsi 0#32 w)) = rowWord w := by
  have hmax : IntOp.maxsi 0#32 w = w := by
    unfold IntOp.maxsi
    rw [if_neg]
    rw [BitVec.slt_iff_toInt_lt]
    show ¬ (w.toInt < (0#32 : BitVec 32).toInt)
    simp; omega
  have hmin : IntOp.minsi 1000#32 w = w := by
    unfold IntOp.minsi
    rw [if_neg]
    rw [BitVec.slt_iff_toInt_lt]
    show ¬ ((1000#32 : BitVec 32).toInt < w.toInt)
    have : (1000#32 : BitVec 32).toInt = 1000 := by decide
    omega
  rw [hmax, hmin]
  unfold rowWord Scalar.select IntOp.cmpi
  by_cases hw : w = 0#32
  · subst hw; rfl
  · have hb : (w == 0#32) = false := by simpa using hw
    rw [if_neg hw, hb]
    rfl

/-- One entry of the one-hot row for the row word `s`, at column k: the comparison of the column number with `s`,
    widened to a word and converted, is 1 at k = s and 0 elsewhere (the narrowing to bf16 changes no extended real). -/
theorem onehot_entry (s : BitVec 32) (k : Fin 1024) (h : FTy.bits .bf16 < FTy.bits .f32) :
    (FloatOps.truncf (F := Ideal) .bf16 h
        (FloatOps.sitofp (F := Ideal) .f32 ((IntOp.cmpi .eq (BitVec.ofNat 32 k.val) s).setWidth 32)) : EReal)
      = if k.val = s.toNat then 1 else 0 := by
  rw [Ideal.truncf_def]
  show ((((IntOp.cmpi .eq (BitVec.ofNat 32 k.val) s).setWidth 32).toInt : ℝ) : EReal) = _
  unfold IntOp.cmpi
  by_cases hk : BitVec.ofNat 32 k.val = s
  · have hb : (BitVec.ofNat 32 k.val == s) = true := by simpa using hk
    have hv : k.val = s.toNat := by
      rw [← hk, BitVec.toNat_ofNat]
      have := k.isLt
      omega
    have e : ((BitVec.ofBool true).setWidth 32).toInt = 1 := by decide
    rw [hb, if_pos hv, e]
    norm_num
  · have hb : (BitVec.ofNat 32 k.val == s) = false := by simpa using hk
    have hv : ¬ k.val = s.toNat := fun e => hk (by
      apply BitVec.eq_of_toNat_eq
      rw [BitVec.toNat_ofNat, ← e]
      have := k.isLt
      omega)
    have e : ((BitVec.ofBool false).setWidth 32).toInt = 0 := by decide
    rw [hb, if_neg hv, e]
    norm_num

/-- A one-hot row times a table column: the sum over the 1024 columns has one nonzero term, the table's entry on the
    selected row. -/
theorem onehot_sum (s : BitVec 32) (hs : s.toNat < 1024) (E : Fin 1024 → EReal) :
    ∑ k : Fin 1024, (if k.val = s.toNat then (1 : EReal) else 0) * E k = E ⟨s.toNat, hs⟩ := by
  rw [Finset.sum_eq_single (⟨s.toNat, hs⟩ : Fin 1024)]
  · rw [if_pos rfl, one_mul]
  · intro k _ hk
    rw [if_neg (fun h => hk (Fin.ext h)), zero_mul]
  · intro h
    exact absurd (Finset.mem_univ _) h

end Cert.Category

end
-- ==== Proof.LibIx2.lean ====
/-
  Two general readings at an entry of a rank-two result.

  A product with ONE contracted axis, into a zero accumulator, is at entry (p, n) the sum over the contracted
  coordinate k of the left operand at L k times the right at R k, once the operand indices at the contraction
  position whose one coordinate is k are known to be L k and R k (whatever the operands' shapes and whichever of
  their axes is contracted).  And a column [a, 1] broadcast along its rows to [a, b] reads, at (p, c), the
  column's entry p.
-/
import Idealize.ShloMosaic.Lib.Pipeline.Value
import Idealize.ShloMosaic.Lib.ValueIdx
import Idealize.ShloMosaic.PureOps.Ideal.Laws

noncomputable section

namespace Cert.LibIx2

open Idealize.ShloMosaic Idealize.ShloMosaic.ValueIdx
open scoped BigOperators

/-- A product with one contracted axis of extent K, into the zero accumulator, at entry (p, n): the sum over
    k of the left operand at L k times the right at R k, where L k and R k are the operand indices at the
    contraction position whose one coordinate is k. -/
theorem matmul_zero_ix2 {sl sr : Shape} {M N K : ℕ} (D : DotDims sl sr ⟨2, ![M, N]⟩) (hr : D.contr.rank = 1)
    (hs : D.contr.size ⟨0, by omega⟩ = K) (l : FVec Ideal sl .f32) (r : FVec Ideal sr .f32) (p : Fin M) (n : Fin N)
    (L : Fin K → sl.Idx) (R : Fin K → sr.Idx)
    (hL : ∀ (k : Fin K) (q : D.contr.Idx), (q ⟨0, by omega⟩ : ℕ) = k.val → D.lhsIdx (ix2 p n) q = L k)
    (hR : ∀ (k : Fin K) (q : D.contr.Idx), (q ⟨0, by omega⟩ : ℕ) = k.val → D.rhsIdx (ix2 p n) q = R k) :
    matmul D none l r (constant ⟨2, ![M, N]⟩ .f32 0x00000000#32) (ix2 p n) = ∑ k : Fin K, l (L k) * r (R k) := by
  simp only [matmul]
  rw [Ideal.matmul_constant_zero_apply, ← Equiv.sum_comp (contrEquiv1 D K hr hs).symm]
  refine Finset.sum_congr rfl fun k _ => ?_
  rw [hL k _ (contrEquiv1_symm_val D K hr hs k), hR k _ (contrEquiv1_symm_val D K hr hs k)]

/-- A column [a, 1] broadcast to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibIx2

end
-- ==== Proof.Payload.lean ====
/-
  One entry of what the kernel body stores, as extended reals.

  The body builds, from the 2048 category words of its block, a 2048 × 1024 one-hot matrix (row p has its 1 at the
  column `rowWord` of category p), multiplies it with the 1024-row table and scales the block of inputs by the
  product.  At entry (p, q) the product's sum over the 1024 columns collapses to the table's entry (rowWord, q): the
  store's entry is x(p, q) · table(rowWord(category p), q).
-/
import proofs.«422520_j9019431321846_3_alg».proof.Proof.Gen.KernelIdeal.Skeleton
import proofs.«422520_j9019431321846_3_alg».proof.Proof.Select
import proofs.«422520_j9019431321846_3_alg».proof.Proof.LibIx2
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx
open scoped BigOperators

/-! ### The product's operand indices, coordinate by coordinate -/

theorem lhs_0 (j : S2048x512.Idx) (k : dot_S2048x1024_S1024x512_S2048x512_1_0_0_1_n_n.contr.Idx) :
    (dot_S2048x1024_S1024x512_S2048x512_1_0_0_1_n_n.lhsIdx j k 0 : ℕ) = j 0 := by
  simp [DotDims.lhsIdx, dot_S2048x1024_S1024x512_S2048x512_1_0_0_1_n_n]; rfl
theorem lhs_1 (j : S2048x512.Idx) (k : dot_S2048x1024_S1024x512_S2048x512_1_0_0_1_n_n.contr.Idx) :
    (dot_S2048x1024_S1024x512_S2048x512_1_0_0_1_n_n.lhsIdx j k 1 : ℕ) = k ⟨0, by decide⟩ := by
  simp [DotDims.lhsIdx, dot_S2048x1024_S1024x512_S2048x512_1_0_0_1_n_n]; rfl
theorem rhs_0 (j : S2048x512.Idx) (k : dot_S2048x1024_S1024x512_S2048x512_1_0_0_1_n_n.contr.Idx) :
    (dot_S2048x1024_S1024x512_S2048x512_1_0_0_1_n_n.rhsIdx j k 0 : ℕ) = k ⟨0, by decide⟩ := by
  simp [DotDims.rhsIdx, dot_S2048x1024_S1024x512_S2048x512_1_0_0_1_n_n]; rfl
theorem rhs_1 (j : S2048x512.Idx) (k : dot_S2048x1024_S1024x512_S2048x512_1_0_0_1_n_n.contr.Idx) :
    (dot_S2048x1024_S1024x512_S2048x512_1_0_0_1_n_n.rhsIdx j k 1 : ℕ) = j 1 := by
  simp [DotDims.rhsIdx, dot_S2048x1024_S1024x512_S2048x512_1_0_0_1_n_n]; rfl

/-- The product into the zero accumulator at entry (p, q): the sum over the 1024 columns k of the left operand at
    (p, k) times the right at (k, q). -/
theorem product_apply (l : FVec Ideal S2048x1024 .bf16) (r : FVec Ideal S1024x512 .bf16) (p : Fin 2048) (q : Fin 512) :
    matmul dot_S2048x1024_S1024x512_S2048x512_1_0_0_1_n_n none l r (constant S2048x512 .f32 0x00000000#32) (ix2 p q)
      = ∑ k : Fin 1024, l (ix2 p k) * r (ix2 k q) := by
  simp only [matmul]
  rw [Ideal.matmul_constant_zero_apply,
    ← Equiv.sum_comp (contrEquiv1 dot_S2048x1024_S1024x512_S2048x512_1_0_0_1_n_n 1024 rfl rfl).symm]
  refine Finset.sum_congr rfl fun k _ => ?_
  have hk := contrEquiv1_symm_val dot_S2048x1024_S1024x512_S2048x512_1_0_0_1_n_n 1024 rfl rfl k
  congr 2
  · funext a
    refine Fin.ext ?_
    match a with
    | ⟨0, _⟩ => exact lhs_0 _ _
    | ⟨1, _⟩ => exact (lhs_1 _ _).trans hk
  · funext a
    refine Fin.ext ?_
    match a with
    | ⟨0, _⟩ => exact (rhs_0 _ _).trans hk
    | ⟨1, _⟩ => exact rhs_1 _ _

/-- THE STORE AT AN ENTRY, for a category word in [0, 1000): the input times the table's entry on the selected row. -/
theorem pay_apply (v1 : IVec S2048x1 32) (v16 : FVec Ideal S1024x512 .bf16) (v19 : FVec Ideal S2048x512 .f32)
    (p : Fin 2048) (q : Fin 512) (h0 : 0 ≤ (v1 (ix2 p (0 : Fin 1))).toInt) (h1 : (v1 (ix2 p (0 : Fin 1))).toInt < 1000) :
    k0_pay1 (F := Ideal) v1 v16 v19 (ix2 p q)
      = v19 (ix2 p q) * v16 (ix2 (⟨(Cert.Category.rowWord (v1 (ix2 p (0 : Fin 1)))).toNat,
          Cert.Category.rowWord_lt h0 h1⟩ : Fin 1024) q) := by
  unfold k0_pay1
  dsimp only
  rw [shapeCast_self, shapeCast_self, shapeCast_self]
  show v19 (ix2 p q) * matmul dot_S2048x1024_S1024x512_S2048x512_1_0_0_1_n_n none _ v16
      (constant S2048x512 .f32 0x00000000#32) (ix2 p q) = _
  rw [product_apply]
  refine congrArg (v19 (ix2 p q) * ·) ?_
  rw [← Cert.Category.onehot_sum _ (Cert.Category.rowWord_lt h0 h1) (fun k => v16 (ix2 k q))]
  refine Finset.sum_congr rfl fun k _ => ?_
  refine congrArg (· * v16 (ix2 k q)) ?_
  rw [← Cert.Category.clamp_select h0 h1, ← Cert.Category.onehot_entry _ k bitsLt_bf16_f32]
  show FloatOps.truncf .bf16 _ (FloatOps.sitofp .f32 ((IntOp.cmpi .eq
      (iota .tc S2048x1024 32 [1] iota_S2048x1024_d1_w32 (ix2 p k))
      (broadcastTo S2048x1024 _ broadcasts_S2048x1_S2048x1024 (ix2 p k))).setWidth 32)) = _
  rw [iota_single_apply, Cert.LibIx2.broadcastTo_a1_ab_apply]
  rfl

end Cert.KernelIdeal.Body

end
-- ==== Proof.Scaled.lean ====
/-
  The result both programs compute, as one function of the three argument arrays, index by index.

  Position (a, b) has a category word.  Its multiplier along the feature axis is the constant 1 when the word is 0
  (the padding category) and otherwise row `word` of the table, the word read as a signed integer and clamped
  into the table's rows.  The result at (a, b, d) is the input there times the multiplier at d.
-/
import Idealize.ShloMosaic.Lib.ValueIdx

noncomputable section

namespace Cert.Scaled

open Idealize.ShloMosaic Idealize.ShloMosaic.ValueIdx

/-- The multiplier of a position with category word `w`, at feature `d`: the word `0x3F800000` (one) for the padding
    category, else the table at row `w` (signed, clamped into [0, 999]) and column `d`. -/
def mult (w : BitVec 32) (emb : (⟨2, ![1000, 512]⟩ : Shape).Idx → EReal) (d : Fin 512) : EReal :=
  if w = 0#32 then Ideal.ofBits .f32 0x3F800000#32
  else emb (ix2 (⟨min w.toInt.toNat 999, by omega⟩ : Fin 1000) d)

/-- The whole result: the inputs scaled position by position. -/
def result (x : (⟨3, ![128, 512, 512]⟩ : Shape).Idx → EReal) (cat : (⟨2, ![128, 512]⟩ : Shape).Idx → BitVec 32)
    (emb : (⟨2, ![1000, 512]⟩ : Shape).Idx → EReal) : (⟨3, ![128, 512, 512]⟩ : Shape).Idx → EReal :=
  fun i => x i * mult (cat (ix2 (i 0) (i 1))) emb (i 2)

end Cert.Scaled

end
-- ==== Proof.Point.lean ====
/-
  One entry of the body's store is one entry of the scaled input.

  Given what the three loaded blocks hold at the entries the store's entry (p, q) depends on — the block's category
  p is the category of some position, the block's input (p, q) is the input there at feature q, and column q of the
  resident table is the argument table's column on the rows below 1000 and one on row 1000 — the stored value is
  `Scaled.result` at that position and feature.  The padding category selects the row of ones; any other category
  in [0, 1000) selects its own row, which is the row the clamp of the reference reads.
-/
import proofs.«422520_j9019431321846_3_alg».proof.Proof.Payload
import proofs.«422520_j9019431321846_3_alg».proof.Proof.Scaled

noncomputable section

namespace Cert.KernelIdeal.Body

open Cert.KernelIdeal Cert.KernelIdeal.Gen Idealize.ShloMosaic Idealize.ShloMosaic.ValueIdx

theorem point_eq (x0 : IVec S2048x1 32) (x1 : FVec Ideal S2048x512 .f32) (x2 : FVec Ideal S1024x512 .bf16)
    (x : S128x512x512.Idx → EReal) (cat : S128x512.Idx → BitVec 32) (emb : S1000x512.Idx → EReal)
    (p : Fin 2048) (q : Fin 512) (a : Fin 128) (b : Fin 512)
    (h0 : 0 ≤ (cat (ix2 a b)).toInt) (h1 : (cat (ix2 a b)).toInt < 1000)
    (hc : x0 (ix2 p (0 : Fin 1)) = cat (ix2 a b))
    (hx : x1 (ix2 p q) = x (ix3 a b q))
    (hrow : ∀ (k : Fin 1024) (hk : k.val < 1000), x2 (ix2 k q) = emb (ix2 (⟨k.val, hk⟩ : Fin 1000) q))
    (hone : x2 (ix2 (⟨1000, by decide⟩ : Fin 1024) q) = Ideal.ofBits .f32 0x3F800000#32) :
    k0_pay1 (F := Ideal) x0 x2 x1 (ix2 p q) = Cert.Scaled.result x cat emb (ix3 a b q) := by
  have h0' : 0 ≤ (x0 (ix2 p (0 : Fin 1))).toInt := by rw [hc]; exact h0
  have h1' : (x0 (ix2 p (0 : Fin 1))).toInt < 1000 := by rw [hc]; exact h1
  rw [pay_apply x0 x2 x1 p q h0' h1', hx]
  unfold Cert.Scaled.result Cert.Scaled.mult
  refine congrArg (x (ix3 a b q) * ·) ?_
  show x2 (ix2 _ q) = if cat (ix2 a b) = 0#32 then _ else _
  have hnat := Cert.Category.toNat_of_range h0 h1
  by_cases hw : cat (ix2 a b) = 0#32
  · rw [if_pos hw]
    refine Eq.trans (congrArg (fun k => x2 (ix2 k q)) (Fin.ext ?_)) hone
    show (Cert.Category.rowWord (x0 (ix2 p (0 : Fin 1)))).toNat = 1000
    rw [hc, hw]
    rfl
  · rw [if_neg hw]
    have hk : (Cert.Category.rowWord (x0 (ix2 p (0 : Fin 1)))).toNat = (cat (ix2 a b)).toNat := by
      rw [hc]; unfold Cert.Category.rowWord; rw [if_neg hw]
    refine Eq.trans (congrArg (fun k => x2 (ix2 k q)) (Fin.ext (a := _) (b := (⟨(cat (ix2 a b)).toNat, by omega⟩ : Fin 1024)) hk))
      ((hrow _ hnat).trans (congrArg (fun r => emb (ix2 r q)) (Fin.ext ?_)))
    show (cat (ix2 a b)).toNat = min (cat (ix2 a b)).toInt.toNat 999
    have := BitVec.toInt_eq_toNat_cond (x := cat (ix2 a b))
    split at this <;> omega

end Cert.KernelIdeal.Body

end
-- ==== Proof.LibRowSet.lean ====
/-
  Setting one row of a matrix, as a scatter read at an entry.

  For a matrix `x : [N, B]`, one row number and a row `v : [B]`, "replace row `r` of `x` by `v`" is a
  `stablehlo.scatter` with update window axes `[0]`, inserted window axes `[0]`, the scatter index mapped to operand
  axis `0`, the index vector on axis `0` of scatter indices of shape `[1]`, updates of shape `[B]`, and a body that
  returns the update. Update index `j` lands at `(start, j)`: the start on axis `0` is the one scatter index read
  signed, on axis `1` it is `0`; the window coordinate on axis `0` is `0` (the axis is inserted) and on axis `1` it is
  `j`. So the `B` updates land on the `B` pairwise different entries of row `r`, each entry of that row meets exactly
  one update, and no other entry meets any: the result is `v` on row `r` and `x` elsewhere.

  First the two facts about a left fold of single-index overwrites that this uses, then the landing index, then the
  theorem `rowSet_apply`.
-/
import Idealize.ShloMosaic.Lib.ValueIdx

namespace Cert.Lib.RowSet

open Idealize.ShloMosaic Idealize.ShloMosaic.ValueIdx

/-! ## A left fold of single-index overwrites -/

section Fold
variable {ι κ α : Type} [DecidableEq ι]

/-- A left fold of single-index overwrites (element `n` writes `v n` at index `g n`) leaves the start value at an
    index that no element of the list writes to. -/
theorem foldl_set_of_forall_ne (g : κ → ι) (v : κ → α) (i : ι) :
    ∀ (l : List κ) (x : ι → α), (∀ n ∈ l, g n ≠ i) →
      l.foldl (fun r n => fun i' => if i' = g n then v n else r i') x i = x i
  | [], _, _ => rfl
  | a :: t, x, h => by
    rw [List.foldl_cons, foldl_set_of_forall_ne g v i t _ (fun n hn => h n (List.mem_cons_of_mem _ hn))]
    exact if_neg (fun e => h a (by simp) e.symm)

/-- A left fold of single-index overwrites ends, at an index that exactly one element `n₀` of the list writes to, at
    the value `n₀` writes: the elements before `n₀` are overwritten by it, the ones after it write elsewhere. -/
theorem foldl_set_of_unique (g : κ → ι) (v : κ → α) (i : ι) (n₀ : κ) (h₀ : g n₀ = i) :
    ∀ (l : List κ) (x : ι → α), n₀ ∈ l → (∀ n ∈ l, g n = i → n = n₀) →
      l.foldl (fun r n => fun i' => if i' = g n then v n else r i') x i = v n₀
  | [], _, hm, _ => by simp at hm
  | a :: t, x, hm, hu => by
    rw [List.foldl_cons]
    by_cases ht : n₀ ∈ t
    · exact foldl_set_of_unique g v i n₀ h₀ t _ ht (fun n hn => hu n (List.mem_cons_of_mem _ hn))
    · have ha : a = n₀ := by
        rcases List.mem_cons.1 hm with e | e
        · exact e.symm
        · exact absurd e ht
      rw [foldl_set_of_forall_ne g v i t _ (fun n hn e => ht (hu n (List.mem_cons_of_mem _ hn) e ▸ hn))]
      show (if i = g a then v a else x i) = v n₀
      rw [ha, if_pos h₀.symm]

end Fold

/-! ## The dimension numbers of a row set, and where an update lands -/

/-- The dimension numbers of "set one row": operand `[N, B]`, scatter indices `[1]`, updates `[B]`; the updates' one
    axis is a window axis, the operand's axis `0` is inserted and is the axis the one scatter index addresses, and the
    index vector lies on axis `0` of the scatter indices. Their conditions `wf` are decided on literal sizes. -/
abbrev rowSetDims (N B : Nat) (wf : ScatterDims.WF ⟨2, ![N, B]⟩ ⟨1, ![1]⟩ ⟨1, ![B]⟩ [0] [0] [0] 0) :
    ScatterDims ⟨2, ![N, B]⟩ ⟨1, ![1]⟩ ⟨1, ![B]⟩ where
  updateWindowDims := [0]
  insertedWindowDims := [0]
  scatterDimsToOperandDims := [0]
  indexVectorDim := 0
  wf := wf

section Landing
variable {N B w : Nat} (wf : ScatterDims.WF ⟨2, ![N, B]⟩ ⟨1, ![1]⟩ ⟨1, ![B]⟩ [0] [0] [0] 0)
  (idx : IVec ⟨1, ![1]⟩ w) (j : (⟨1, ![B]⟩ : Shape).Idx)

/-- On the row axis the window of every update starts at the one scatter index, read signed. -/
theorem start_row : (rowSetDims N B wf).start j idx 0 = (idx (ix1 0)).toInt := by
  unfold ScatterDims.start
  rw [dif_pos (show (0 : Fin 2) ∈ (rowSetDims N B wf).scatterDimsToOperandDims from List.mem_singleton.mpr rfl)]
  have hsi : (rowSetDims N B wf).siIdx j ⟨List.idxOf (0 : Fin 2) (rowSetDims N B wf).scatterDimsToOperandDims,
      List.idxOf_lt_length_iff.2 (List.mem_singleton.mpr rfl)⟩ = ix1 0 := by
    funext b; refine Fin.ext ?_
    match b with
    | ⟨0, _⟩ => rfl
  rw [hsi]

/-- On the column axis, which the scatter index does not address, the window starts at `0`. -/
theorem start_col : (rowSetDims N B wf).start j idx 1 = 0 := by
  unfold ScatterDims.start
  rw [dif_neg (show (1 : Fin 2) ∉ [(0 : Fin 2)] by decide)]

/-- The row axis is inserted: the window coordinate on it is `0`. -/
theorem window_row : (rowSetDims N B wf).window j 0 = 0 := by
  unfold ScatterDims.window
  have h : (0 : Fin 2) ∉ (rowSetDims N B wf).sKept :=
    (by decide : (0 : Fin 2) ∉ (List.finRange 2).filter (fun a => a ∉ [(0 : Fin 2)]))
  rw [dif_neg h]

/-- The column axis is the operand's one kept axis: the window coordinate on it is the update's one coordinate. -/
theorem window_col : (rowSetDims N B wf).window j 1 = (j 0).val := by
  unfold ScatterDims.window
  have h : (1 : Fin 2) ∈ (rowSetDims N B wf).sKept :=
    (by decide : (1 : Fin 2) ∈ (List.finRange 2).filter (fun a => a ∉ [(0 : Fin 2)]))
  rw [dif_pos h]
  rfl

/-- Where update `j` lands: when the scatter index reads as the row number `r < N`, at `(r, j)`, inside the operand,
    so no update is dropped. -/
theorem resultIdx?_eq (r : Fin N) (hr : (idx (ix1 0)).toInt = (r.val : Int)) :
    (rowSetDims N B wf).resultIdx? j idx = some (ix2 r (j 0)) := by
  have h0 : (rowSetDims N B wf).start j idx 0 + ((rowSetDims N B wf).window j 0 : Int) = (r.val : Int) := by
    rw [start_row, window_row, hr]; simp
  have h1 : (rowSetDims N B wf).start j idx 1 + ((rowSetDims N B wf).window j 1 : Int) = ((j 0).val : Int) := by
    rw [start_col, window_col]; simp
  have hall : ∀ a, 0 ≤ (rowSetDims N B wf).start j idx a + ((rowSetDims N B wf).window j a : Int) ∧
      (rowSetDims N B wf).start j idx a + ((rowSetDims N B wf).window j a : Int) < ((⟨2, ![N, B]⟩ : Shape).size a : Int) := by
    intro a
    match a with
    | ⟨0, _⟩ =>
      rw [show (⟨0, _⟩ : Fin 2) = 0 from rfl, h0]
      exact ⟨Int.natCast_nonneg _, Int.ofNat_lt.2 r.isLt⟩
    | ⟨1, _⟩ =>
      rw [show (⟨1, _⟩ : Fin 2) = 1 from rfl, h1]
      exact ⟨Int.natCast_nonneg _, Int.ofNat_lt.2 (j 0).isLt⟩
  unfold ScatterDims.resultIdx?
  rw [dif_pos hall]
  congr 1
  funext a
  refine Fin.ext ?_
  match a with
  | ⟨0, _⟩ =>
    show ((rowSetDims N B wf).start j idx 0 + ((rowSetDims N B wf).window j 0 : Int)).toNat = r.val
    rw [h0]; rfl
  | ⟨1, _⟩ =>
    show ((rowSetDims N B wf).start j idx 1 + ((rowSetDims N B wf).window j 1 : Int)).toNat = (j 0).val
    rw [h1]; rfl

end Landing

/-! ## The row set read at an entry -/

/-- THE ROW SET READ AT `(p, q)`: a scatter of one row `upd : [B]` into `x : [N, B]` at the one scatter index
    `idx[0]`, whose signed value is the row number `r`, with a body that returns the update, is the update row on
    row `r` and the operand on every other row. On row `r` the one update that lands at `(r, q)` is the one at the
    row-major position of `q`, row-major numbering being a bijection; off row `r` no update lands. -/
theorem rowSet_apply {α : Type} {N B w : Nat} (wf : ScatterDims.WF ⟨2, ![N, B]⟩ ⟨1, ![1]⟩ ⟨1, ![B]⟩ [0] [0] [0] 0)
    (x : (⟨2, ![N, B]⟩ : Shape).Idx → α) (idx : IVec ⟨1, ![1]⟩ w) (upd : (⟨1, ![B]⟩ : Shape).Idx → α)
    (r : Fin N) (hr : (idx (ix1 0)).toInt = (r.val : Int)) (p : Fin N) (q : Fin B) :
    Host.scatter (rowSetDims N B wf) (fun _ b => b) x idx upd (ix2 p q) = if p = r then upd (ix1 q) else x (ix2 p q) := by
  unfold Host.scatter
  simp only [resultIdx?_eq wf idx _ r hr]
  by_cases hp : p = r
  · rw [if_pos hp]
    subst hp
    refine (foldl_set_of_unique (fun n => ix2 p (((⟨1, ![B]⟩ : Shape).rowMajor.symm n) 0))
      (fun n => upd ((⟨1, ![B]⟩ : Shape).rowMajor.symm n)) (ix2 p q) ((⟨1, ![B]⟩ : Shape).rowMajor (ix1 q)) ?_ _ x
      (List.mem_finRange _) ?_).trans ?_
    · simp only [Equiv.symm_apply_apply]
      rfl
    · intro n _ hn
      have h1 : ((⟨1, ![B]⟩ : Shape).rowMajor.symm n) 0 = q := congrFun hn 1
      have h2 : (⟨1, ![B]⟩ : Shape).rowMajor.symm n = ix1 q := (eq_ix1 _).trans (congrArg (ix1 (n := B)) h1)
      rw [← h2, Equiv.apply_symm_apply]
    · simp only [Equiv.symm_apply_apply]
  · rw [if_neg hp]
    exact foldl_set_of_forall_ne (fun n => ix2 r (((⟨1, ![B]⟩ : Shape).rowMajor.symm n) 0))
      (fun n => upd ((⟨1, ![B]⟩ : Shape).rowMajor.symm n)) (ix2 p q) _ x (fun n _ e => hp (congrFun e 0).symm)

end Cert.Lib.RowSet
-- ==== Proof.Staged.lean ====
/-
  What the region finds in the three arrays it stages, as functions of the program's arguments.

  The category column [65536, 1] and the input matrix [65536, 512] are the arguments re-laid row-major: row n is
  position (n / 512, n % 512).  The resident table [1024, 512] is the argument table padded below with 24 rows of
  zeros, its row 1000 then replaced by a row of ones, narrowed to bf16 (no change of value on the extended reals):
  row k < 1000 is the argument's row k, and row 1000 is constant one.
-/
import proofs.«422520_j9019431321846_3_alg».proof.Proof.Gen.KernelIdeal.Frame
import proofs.«422520_j9019431321846_3_alg».proof.Proof.LibRowSet
import Idealize.ShloMosaic.Lib.Pipeline.Value
import Idealize.ShloMosaic.Lib.ValueIdx
import Idealize.ShloMosaic.Lib.KernelVsHost
import Idealize.ShloMosaic.Lib.StableHlo.Run

noncomputable section

namespace Cert.KernelIdeal.Staged

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- The category column the region stages: the category argument re-laid as one column. -/
theorem cats_eq (c : Dev nD) : (V m c main_v0 : S65536x1.Idx → BitVec 32)
    = shapeCast S65536x1 (m ((c : Thread nD τ).loc main_arg1)) shapeCasts_S128x512_S65536x1 := by
  dsimp only [V, V0]
  simp only [hostOps0, hostOps0_1, hostOps0_2, List.flatten_cons, List.flatten_nil, List.append_nil, List.cons_append,
    List.nil_append]
  after_results
  rfl

/-- The input matrix the region stages: the input argument re-laid with its two leading axes merged. -/
theorem inputs_eq (c : Dev nD) : (V m c main_v1 : S65536x512.Idx → EReal)
    = shapeCast S65536x512 (m ((c : Thread nD τ).loc main_arg0)) shapeCasts_S128x512x512_S65536x512 := by
  dsimp only [V, V0]
  simp only [hostOps0, hostOps0_1, hostOps0_2, List.flatten_cons, List.flatten_nil, List.append_nil, List.cons_append,
    List.nil_append]
  after_results
  rfl

/-- The resident table the region stages: the argument table padded, row 1000 set to ones, narrowed. -/
theorem table_eq (c : Dev nD) : (V m c main_v6 : S1024x512.Idx → EReal)
    = truncf .bf16 (Host.scatter scatter_S1024x512_S1_S512_0_0_0_0 (fun _ b => b)
        (pad S1024x512 ![0, 0] ![24, 0] ![0, 0] (m ((c : Thread nD τ).loc main_arg3))
          (sitofp (F := Ideal) .f32 (constantI S_ 32 0#32)) pads_S1000x512_S1024x512_0240_000 h_S_)
        (broadcastInDim S1 ![] bcast_S_S1 (constantI S_ 32 1000#32))
        (broadcastInDim S512 ![] bcast_S_S512 (constant (F := Ideal) S_ .f32 0x3F800000#32))) bitsLt_bf16_f32 := by
  dsimp only [V, V0]
  simp only [hostOps0, hostOps0_1, hostOps0_2, List.flatten_cons, List.flatten_nil, List.append_nil, List.cons_append,
    List.nil_append]
  after_results
  rfl

/-- Row n of the category column is the category of position (n / 512, n % 512). -/
theorem cats_apply (c : Dev nD) (n : Fin 65536) :
    (V m c main_v0 : S65536x1.Idx → BitVec 32) (ix2 n (0 : Fin 1))
      = m ((c : Thread nD τ).loc main_arg1) (ix2 (⟨n.val / 512, by have := n.isLt; omega⟩ : Fin 128)
          (⟨n.val % 512, Nat.mod_lt _ (by decide)⟩ : Fin 512)) := by
  rw [cats_eq]
  refine shapeCast_apply _ _ _ _ ?_
  show ((⟨2, ![128, 512]⟩ : Shape).rowMajor (ix2 (⟨n.val / 512, _⟩ : Fin 128) (⟨n.val % 512, _⟩ : Fin 512))).val
    = ((⟨2, ![65536, 1]⟩ : Shape).rowMajor (ix2 n (0 : Fin 1))).val
  rw [Shape.rowMajor_val_two, Shape.rowMajor_val_two]
  show n.val / 512 * 512 + n.val % 512 = n.val * 1 + 0
  omega

/-- Entry (n, q) of the input matrix is the input at position (n / 512, n % 512), feature q. -/
theorem inputs_apply (c : Dev nD) (n : Fin 65536) (q : Fin 512) :
    (V m c main_v1 : S65536x512.Idx → EReal) (ix2 n q)
      = m ((c : Thread nD τ).loc main_arg0) (ix3 (⟨n.val / 512, by have := n.isLt; omega⟩ : Fin 128)
          (⟨n.val % 512, Nat.mod_lt _ (by decide)⟩ : Fin 512) q) := by
  rw [inputs_eq]
  refine shapeCast_apply _ _ _ _ ?_
  show ((⟨3, ![128, 512, 512]⟩ : Shape).rowMajor (ix3 (⟨n.val / 512, _⟩ : Fin 128) (⟨n.val % 512, _⟩ : Fin 512) q)).val
    = ((⟨2, ![65536, 512]⟩ : Shape).rowMajor (ix2 n q)).val
  rw [Shape.rowMajor_val_two, Shape.rowMajor_val_three]
  show (n.val / 512 * 512 + n.val % 512) * 512 + q.val = n.val * 512 + q.val
  omega

/-- The one scatter index reads as row 1000. -/
theorem row_index : (broadcastInDim S1 ![] bcast_S_S1 (constantI S_ 32 1000#32) (ix1 (0 : Fin 1))).toInt
    = ((⟨1000, by decide⟩ : Fin 1024).val : Int) := by
  rw [broadcastInDim_apply _ bcast_S_S1 _ (ix1 (0 : Fin 1)) ix0 (fun a => a.elim0)]
  decide

/-- The table at an entry (k, q), before the narrowing: ones on row 1000, the padded argument elsewhere. -/
theorem table_apply (c : Dev nD) (k : Fin 1024) (q : Fin 512) :
    (V m c main_v6 : S1024x512.Idx → EReal) (ix2 k q)
      = if k = (⟨1000, by decide⟩ : Fin 1024)
        then broadcastInDim S512 ![] bcast_S_S512 (constant (F := Ideal) S_ .f32 0x3F800000#32) (ix1 q)
        else pad S1024x512 ![0, 0] ![24, 0] ![0, 0] (m ((c : Thread nD τ).loc main_arg3))
          (sitofp (F := Ideal) .f32 (constantI S_ 32 0#32)) pads_S1000x512_S1024x512_0240_000 h_S_ (ix2 k q) := by
  rw [table_eq]
  show FloatOps.truncf (F := Ideal) .bf16 bitsLt_bf16_f32 _ = _
  rw [Ideal.truncf_def]
  exact Cert.Lib.RowSet.rowSet_apply scatter_S1024x512_S1_S512_0_0_0_0_wf _ _ _ _ row_index k q

/-- A row of the table below 1000 is the argument table's row. -/
theorem table_row (c : Dev nD) (k : Fin 1024) (hk : k.val < 1000) (q : Fin 512) :
    (V m c main_v6 : S1024x512.Idx → EReal) (ix2 k q)
      = m ((c : Thread nD τ).loc main_arg3) (ix2 (⟨k.val, hk⟩ : Fin 1000) q) := by
  rw [table_apply, if_neg (fun e => by have := congrArg Fin.val e; simp at this; omega)]
  refine pad_apply_of_inside _ _ _ _ _ _ _ (ix2 k q) (ix2 (⟨k.val, hk⟩ : Fin 1000) q) (fun a => ?_)
  match a with
  | ⟨0, _⟩ => show k.val = 0 + k.val * (0 + 1); omega
  | ⟨1, _⟩ => show q.val = 0 + q.val * (0 + 1); omega

/-- Row 1000 of the table is constant one (the word `0x3F800000`). -/
theorem table_ones (c : Dev nD) (q : Fin 512) :
    (V m c main_v6 : S1024x512.Idx → EReal) (ix2 (⟨1000, by decide⟩ : Fin 1024) q)
      = Ideal.ofBits .f32 0x3F800000#32 := by
  rw [table_apply, if_pos rfl, broadcastInDim_apply _ bcast_S_S512 _ (ix1 q) ix0 (fun a => a.elim0)]
  rfl

end Cert.KernelIdeal.Staged

end
-- ==== Proof.Whole.lean ====
/-
  The kernel program's result array after the run.

  Grid point t stages rows [2048 t, 2048 t + 2048) of the category column and of the input matrix, the whole
  resident table, and writes back the same rows of the [65536, 512] output.  What it writes back is the block of ONE
  whole-array function, the scaled input re-laid with its two leading axes merged; the 32 blocks tile the output,
  so after the run the output array is that function, and the final reshape to [128, 512, 512] gives the scaled
  input itself.
-/
import proofs.«422520_j9019431321846_3_alg».proof.Proof.Gen.KernelIdeal.Frame
import proofs.«422520_j9019431321846_3_alg».proof.Proof.Point
import proofs.«422520_j9019431321846_3_alg».proof.Proof.Staged
import proofs.«422520_j9019431321846_3_alg».proof.Proof.Scaled
import Idealize.ShloMosaic.Lib.Pipeline.Value
import Idealize.ShloMosaic.Lib.ValueIdx
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)

variable (m : (ℓ : Loc nD τ sig) → Buf (Elt Ideal) ℓ) (ρ : Dev nD → PrngReg)

/-- The scaled input of core c's arguments. -/
abbrev scaled (c : Dev nD) : S128x512x512.Idx → EReal :=
  Cert.Scaled.result (m ((c : Thread nD τ).loc main_arg0)) (m ((c : Thread nD τ).loc main_arg1))
    (m ((c : Thread nD τ).loc main_arg3))

/-- The same re-laid [65536, 512]: what the output array ends holding. -/
abbrev flat (c : Dev nD) : S65536x512.Idx → EReal :=
  shapeCast S65536x512 (scaled m c) shapeCasts_S128x512x512_S65536x512

/-- Entry (n, q) of the re-laid result is the result at position (n / 512, n % 512), feature q. -/
theorem flat_apply (c : Dev nD) (n : Fin 65536) (q : Fin 512) :
    flat m c (ix2 n q) = scaled m c (ix3 (⟨n.val / 512, by have := n.isLt; omega⟩ : Fin 128)
      (⟨n.val % 512, Nat.mod_lt _ (by decide)⟩ : Fin 512) q) := by
  refine shapeCast_apply _ _ _ _ ?_
  show ((⟨3, ![128, 512, 512]⟩ : Shape).rowMajor (ix3 (⟨n.val / 512, _⟩ : Fin 128) (⟨n.val % 512, _⟩ : Fin 512) q)).val
    = ((⟨2, ![65536, 512]⟩ : Shape).rowMajor (ix2 n q)).val
  rw [Shape.rowMajor_val_two, Shape.rowMajor_val_three]
  show (n.val / 512 * 512 + n.val % 512) * 512 + q.val = n.val * 512 + q.val
  omega

theorem hz : (![0, 0] : Fin 2 → Nat) = fun _ => 0 := funext fun a => by fin_cases a <;> rfl

/-- The printed index maps over the grid: point t stages block t of the column, of the matrix and of the output, and
    block 0 of the table. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 32 :=
  (by decide +kernel : ∀ t : Fin grid0.N, _)

/-- WHAT POINT t WRITES BACK is block t of the re-laid result, for categories in [0, 1000). -/
theorem flushed_eq (c : Dev nD)
    (hcat : ∀ i, 0 ≤ (m ((c : Thread nD τ).loc main_arg1) i).toInt ∧ (m ((c : Thread nD τ).loc main_arg1) i).toInt < 1000)
    (t : Fin cfg0.N) :
    (dats m 0 c).flushed 3 t = ((cfg0.win 3).blk t).view.read (Elt Ideal) (flat m c) := by
  show (cfg0.win 3).cut (grid0.coords t) ((dats m 0 c).after 3 t) = _
  rw [after0_3]
  unfold out0_3
  rw [View.canon_unit_zero hz]
  simp only [View.ld_unit_zero (S := S2048x1) hz, View.ld_unit_zero (S := S1024x512) hz,
    View.ld_unit_zero (S := S2048x512) hz]
  obtain ⟨e00, e01, e10, e11, e20, e21, e30, e31, ht⟩ := idx_facts t
  funext j
  obtain ⟨p, q, rfl⟩ : ∃ (p : Fin 2048) (q : Fin 512), j = ix2 p q := ⟨j 0, j 1, eq_ix2 j⟩
  have hn : t.val * 2048 + p.val < 65536 := by have := p.isLt; omega
  show k0_pay1 (F := Ideal) (iblk m c 0 t) (iblk m c 2 t) (iblk m c 1 t) (ix2 p q)
    = flat m c (((cfg0.win 3).blk t).view.emb (ix2 p q))
  have eo : ((cfg0.win 3).blk t).view.emb (ix2 p q) = ix2 (⟨t.val * 2048 + p.val, hn⟩ : Fin 65536) q := by
    funext a; apply Fin.ext
    match a with
    | ⟨0, _⟩ => show win0_3.index t (0 : Fin 2) * 2048 + 1 * p.val = t.val * 2048 + p.val; omega
    | ⟨1, _⟩ => show win0_3.index t (1 : Fin 2) * 512 + 1 * q.val = q.val; omega
  rw [eo, flat_apply]
  refine Cert.KernelIdeal.Body.point_eq (iblk m c 0 t) (iblk m c 1 t) (iblk m c 2 t)
    (m ((c : Thread nD τ).loc main_arg0)) (m ((c : Thread nD τ).loc main_arg1)) (m ((c : Thread nD τ).loc main_arg3))
    p q (⟨(t.val * 2048 + p.val) / 512, by omega⟩ : Fin 128)
    (⟨(t.val * 2048 + p.val) % 512, Nat.mod_lt _ (by decide)⟩ : Fin 512) (hcat _).1 (hcat _).2 ?_ ?_ ?_ ?_
  · -- the block's category p is the column's row 2048 t + p
    show V m c main_v0 (((cfg0.win 0).blk t).view.emb (ix2 p (0 : Fin 1))) = _
    have e : ((cfg0.win 0).blk t).view.emb (ix2 p (0 : Fin 1))
        = ix2 (⟨t.val * 2048 + p.val, hn⟩ : Fin 65536) (0 : Fin 1) := by
      funext a; apply Fin.ext
      match a with
      | ⟨0, _⟩ => show win0_0.index t (0 : Fin 2) * 2048 + 1 * p.val = t.val * 2048 + p.val; omega
      | ⟨1, _⟩ => show win0_0.index t (1 : Fin 2) * 1 + 1 * 0 = 0; omega
    rw [e]
    exact Cert.KernelIdeal.Staged.cats_apply m c _
  · -- the block's input (p, q) is the matrix's entry (2048 t + p, q)
    show V m c main_v1 (((cfg0.win 1).blk t).view.emb (ix2 p q)) = _
    have e : ((cfg0.win 1).blk t).view.emb (ix2 p q) = ix2 (⟨t.val * 2048 + p.val, hn⟩ : Fin 65536) q := by
      funext a; apply Fin.ext
      match a with
      | ⟨0, _⟩ => show win0_1.index t (0 : Fin 2) * 2048 + 1 * p.val = t.val * 2048 + p.val; omega
      | ⟨1, _⟩ => show win0_1.index t (1 : Fin 2) * 512 + 1 * q.val = q.val; omega
    rw [e]
    exact Cert.KernelIdeal.Staged.inputs_apply m c _ q
  · -- the resident block is the whole table
    intro k hk
    show V m c main_v6 (((cfg0.win 2).blk t).view.emb (ix2 k q)) = _
    have e : ((cfg0.win 2).blk t).view.emb (ix2 k q) = ix2 k q := by
      funext a; apply Fin.ext
      match a with
      | ⟨0, _⟩ => show win0_2.index t (0 : Fin 2) * 1024 + 1 * k.val = k.val; omega
      | ⟨1, _⟩ => show win0_2.index t (1 : Fin 2) * 512 + 1 * q.val = q.val; omega
    rw [e]
    exact Cert.KernelIdeal.Staged.table_row m c k hk q
  · show V m c main_v6 (((cfg0.win 2).blk t).view.emb (ix2 (⟨1000, by decide⟩ : Fin 1024) q)) = _
    have e : ((cfg0.win 2).blk t).view.emb (ix2 (⟨1000, by decide⟩ : Fin 1024) q)
        = ix2 (⟨1000, by decide⟩ : Fin 1024) q := by
      funext a; apply Fin.ext
      match a with
      | ⟨0, _⟩ => show win0_2.index t (0 : Fin 2) * 1024 + 1 * 1000 = 1000; omega
      | ⟨1, _⟩ => show win0_2.index t (1 : Fin 2) * 512 + 1 * q.val = q.val; omega
    rw [e]
    exact Cert.KernelIdeal.Staged.table_ones m c q

/-- An index of the output array is in point t's block iff each coordinate is in the block's range on its axis. -/
theorem mem_blk (t : Fin cfg0.N) (i : S65536x512.Idx) :
    i ∈ ((cfg0.win 3).blk t).view.set ↔ ∀ a : Fin 2, win0_3.index t a * S2048x512.size a ≤ (i a).val
      ∧ (i a).val < win0_3.index t a * S2048x512.size a + S2048x512.size a := by
  show i ∈ ((View.whole main_v7).slice (win0_3.rect t)).set ↔ _
  rw [View.set_slice_whole, Rect.mem_set_unit]
  exact Iff.rfl

/-- The 32 blocks tile the output: row n lies in the block of point n / 2048. -/
theorem cover (i : S65536x512.Idx) :
    ∃ t : Fin cfg0.N, (cfg0.win 3).flush t = true ∧ i ∈ ((cfg0.win 3).blk t).view.set := by
  have hi0 : (i 0).val < 65536 := (i 0).isLt
  have hi1 : (i 1).val < 512 := (i 1).isLt
  have hlt : (i 0).val / 2048 < grid0.N := by rw [N_0]; omega
  obtain ⟨-, -, -, -, -, -, e30, e31, -⟩ := idx_facts (⟨(i 0).val / 2048, hlt⟩ : Fin cfg0.N)
  refine ⟨⟨(i 0).val / 2048, hlt⟩, flush0_3 _, ?_⟩
  rw [mem_blk]
  intro a
  match a with
  | ⟨0, _⟩ =>
    show win0_3.index ⟨(i 0).val / 2048, hlt⟩ (0 : Fin 2) * 2048 ≤ (i 0).val
      ∧ (i 0).val < win0_3.index ⟨(i 0).val / 2048, hlt⟩ (0 : Fin 2) * 2048 + 2048
    rw [e30]
    show (i 0).val / 2048 * 2048 ≤ (i 0).val ∧ (i 0).val < (i 0).val / 2048 * 2048 + 2048
    omega
  | ⟨1, _⟩ =>
    show win0_3.index ⟨(i 0).val / 2048, hlt⟩ (1 : Fin 2) * 512 ≤ (i 1).val
      ∧ (i 1).val < win0_3.index ⟨(i 0).val / 2048, hlt⟩ (1 : Fin 2) * 512 + 512
    rw [e31]
    omega

/-- THE OUTPUT ARRAY after the region: the re-laid result. -/
theorem final (c : Dev nD)
    (hcat : ∀ i, 0 ≤ (m ((c : Thread nD τ).loc main_arg1) i).toInt ∧ (m ((c : Thread nD τ).loc main_arg1) i).toInt < 1000) :
    (dats m 0 c).arrAt 3 cfg0.N = flat m c :=
  (dats m 0 c).arrAt_eq_of_cover 3 (flat m c) (fun t _ => flushed_eq m c hcat t) (cover)

/-- THE RESULT after the final reshape: the scaled input. -/
theorem tail_eq (c : Dev nD)
    (hcat : ∀ i, 0 ≤ (m ((c : Thread nD τ).loc main_arg1) i).toInt ∧ (m ((c : Thread nD τ).loc main_arg1) i).toInt < 1000) :
    Pipeline.afterTail₀ cfgs (dats m) 0 (V0 m) [hostOps1] c main_v8 = scaled m c := by
  unfold Pipeline.afterTail₀
  show StableHlo.after hostOps1 _ (Proc.devRef .tc main_v8) = _
  after_results
  have hw : Pipeline.withArrays spec0 c (V0 m c) (fun w => (dats m 0 c).arrAt w cfg0.N)
      (Proc.devRef .tc (Pipeline.arrRef spec0 3)) = (dats m 0 c).arrAt 3 cfg0.N :=
    Pipeline.withArrays_arr spec0 launch0.win.arr_inj c _ _ 3
  show shapeCast S128x512x512 (Pipeline.withArrays spec0 c (V0 m c) (fun w => (dats m 0 c).arrAt w cfg0.N)
      (Proc.devRef .tc (Pipeline.arrRef spec0 3))) shapeCasts_S65536x512_S128x512x512 = _
  rw [hw, final m c hcat]
  exact shapeCast_shapeCast _ _ _

/-- THE KERNEL PROGRAM'S RUN, read: it ends with its result at the scaled input and its arguments unchanged. -/
theorem run
    (hcat : ∀ (c : Dev nD) i, 0 ≤ (m ((c : Thread nD τ).loc main_arg1) i).toInt
      ∧ (m ((c : Thread nD τ).loc main_arg1) i).toInt < 1000) :
    θ_run defs (onTc (τ := τ) (main (F := Ideal))) ⟨m, fun _ => 0, ρ⟩ fun r => ∀ c : Dev nD,
      r.2.mem ((c.tc : Thread nD τ).loc main_v8) = scaled m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v8 (Pipeline.mem_restRefs_of main_v8 (by decide) (by decide))).trans (tail_eq m c (hcat c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Whole

end
-- ==== Proof.LibRowsGather.lean ====
import Idealize.ShloMosaic.Lib.ValueIdx

/-!
# A table's rows gathered at an array of row indices, read at an entry

For a table `x : [N, B]` and an integer array `idx : [R, C]`, `x[idx]` is a `stablehlo.gather` over the indices as
`[R, C, 1]` with offset_dims `[2]`, collapsed_slice_dims `[0]`, start_index_map `[0]`, index_vector_dim `2` and
slice_sizes `[1, B]`; its result is `[R, C, B]`. Entry `(r, c, b)` of the result is the table at row `idx[r, c, 0]`,
read as a signed integer and clamped into `[0, N − 1]`, and column `b`: axis 0 of the table is collapsed and carries
the clamped start index, axis 1 is the one offset axis, whose start is `0` and whose offset coordinate is the result's
coordinate on axis 2.
-/

namespace Cert.Lib.RowsGather

open Idealize.ShloMosaic Idealize.ShloMosaic.ValueIdx

/-- The dimension numbers of a row gather: operand `[N, B]`, start indices `[R, C, 1]`, result `[R, C, B]`; the
    result's axis 2 is the offset axis, the operand's axis 0 is collapsed and is the one axis the start index names, the
    index vector lies on axis 2 of the start indices, and a slice is one whole row. The conditions `wf` are decided on
    literal shapes. -/
abbrev rowsDims (N B R C : Nat) (wf : GatherDims.WF ⟨2, ![N, B]⟩ ⟨3, ![R, C, 1]⟩ ⟨3, ![R, C, B]⟩ [2] [0] [] [0] [] 2 ![1, B]) :
    GatherDims ⟨2, ![N, B]⟩ ⟨3, ![R, C, 1]⟩ ⟨3, ![R, C, B]⟩ where
  offsetDims := [2]
  collapsedSliceDims := [0]
  operandBatchingDims := []
  startIndicesBatchingDims := []
  startIndexMap := [0]
  indexVectorDim := 2
  sliceSizes := ![1, B]
  wf := wf

/-- The row gather read at `(r, c, b)`: the table at row `idx[r, c, 0]`, read signed and clamped into `[0, N − 1]`, and
    column `b`. -/
theorem rowsGather_apply {α : Type} {N B R C w : Nat} (hN : 0 < N)
    (wf : GatherDims.WF ⟨2, ![N, B]⟩ ⟨3, ![R, C, 1]⟩ ⟨3, ![R, C, B]⟩ [2] [0] [] [0] [] 2 ![1, B])
    (x : (⟨2, ![N, B]⟩ : Shape).Idx → α) (idx : IVec ⟨3, ![R, C, 1]⟩ w) (r : Fin R) (c : Fin C) (b : Fin B) :
    Host.gather (rowsDims N B R C wf) x idx (ix3 r c b)
      = x (ix2 (⟨min (idx (ix3 r c (0 : Fin 1))).toInt.toNat (N - 1), by omega⟩ : Fin N) b) := by
  unfold Host.gather
  congr 1
  funext a
  refine Fin.ext ?_
  match a with
  | ⟨0, _⟩ =>
    -- the collapsed axis: no batching coordinate, no offset coordinate, the start is the clamped index
    show (rowsDims N B R C wf).start (ix3 r c b) idx 0 + (rowsDims N B R C wf).batchCoord (ix3 r c b) 0
      + (rowsDims N B R C wf).offCoord (ix3 r c b) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N B R C wf).startIndexMap from List.mem_singleton.mpr rfl)]
    have hsi : (rowsDims N B R C wf).siIdx (ix3 r c b) ⟨List.idxOf (0 : Fin 2) (rowsDims N B R C wf).startIndexMap,
        List.idxOf_lt_length_iff.2 (List.mem_singleton.mpr rfl)⟩ = ix3 r c (0 : Fin 1) := by
      funext k; refine Fin.ext ?_
      match k with
      | ⟨0, _⟩ => rfl
      | ⟨1, _⟩ => rfl
      | ⟨2, _⟩ => rfl
    rw [hsi]
    rfl
  | ⟨1, _⟩ =>
    -- the offset axis: the start index map does not name it, so its start is 0; its offset coordinate is `b`
    show (rowsDims N B R C wf).start (ix3 r c b) idx 1 + (rowsDims N B R C wf).batchCoord (ix3 r c b) 1
      + (rowsDims N B R C wf).offCoord (ix3 r c b) 1 = b.val
    rw [GatherDims.batchCoord_eq_zero _ _ _ List.not_mem_nil]
    have hst : (rowsDims N B R C wf).start (ix3 r c b) idx 1 = 0 := by
      unfold GatherDims.start
      rw [dif_neg (show (1 : Fin 2) ∉ ([0] : List (Fin 2)) from by decide)]
    have hk : (1 : Fin 2) ∈ (rowsDims N B R C wf).sKept :=
      (GatherDims.mem_sKept _ _).mpr ⟨(show (1 : Fin 2) ∉ ([0] : List (Fin 2)) from by decide), List.not_mem_nil⟩
    rw [hst]
    unfold GatherDims.offCoord
    rw [dif_pos hk]
    simp only [Nat.add_zero, Nat.zero_add]
    rfl

end Cert.Lib.RowsGather
-- ==== Proof.RefScaled.lean ====
/-
  The reference computes `Scaled.result`.

  At (a, b, d) the reference multiplies the input by a select: on "category ≠ 0" the gathered table entry, else the
  constant one.  The gather's row index is the category with a negative word wrapped by +1000; for a category in
  [0, 1000) nothing is wrapped, and the gather reads the table at the category's row, clamped, and column d.
-/
import proofs.«422520_j9019431321846_3_alg».proof.Proof.Gen.ReferenceIdeal.Read
import proofs.«422520_j9019431321846_3_alg».proof.Proof.LibRowsGather
import proofs.«422520_j9019431321846_3_alg».proof.Proof.Scaled
import Idealize.ShloMosaic.Lib.ValueIdx
import Idealize.ShloMosaic.PureOps.Ideal.Laws

noncomputable section

namespace Cert.ReferenceIdeal.RefScaled

open Cert.ReferenceIdeal Cert.ReferenceIdeal.Gen Cert.ReferenceIdeal.Read Idealize.ShloMosaic Idealize.ShloMosaic.ValueIdx

/-- The start-index array's entry for result position (a, b, ·). -/
theorem idx_call0 (a : Fin 128) (b : Fin 512) (d : Fin 512) :
    idx_main_call0_v0 (ix3 a b d) = ix3 a b (0 : Fin 1) :=
  funext fun k => match k with | ⟨0, _⟩ => rfl | ⟨1, _⟩ => rfl | ⟨2, _⟩ => rfl
theorem idx_v9 (a : Fin 128) (b : Fin 512) : idx_main_v9 (ix3 a b (0 : Fin 1)) = ix2 a b :=
  funext fun k => match k with | ⟨0, _⟩ => rfl | ⟨1, _⟩ => rfl
theorem idx_v5 (a : Fin 128) (b : Fin 512) : idx_main_v5 (ix3 a b (0 : Fin 1)) = ix2 a b :=
  funext fun k => match k with | ⟨0, _⟩ => rfl | ⟨1, _⟩ => rfl

/-- A word that is not negative is not wrapped: the gather's start index is the category itself. -/
theorem start_eq (x1 : IVec S128x512 32) (a : Fin 128) (b : Fin 512) (h0 : 0 ≤ (x1 (ix2 a b)).toInt) :
    val_main_v5 (F := Ideal) x1 (ix3 a b (0 : Fin 1)) = x1 (ix2 a b) := by
  rw [val_main_v5_apply, idx_v5, val_main_v4_apply, val_main_v1_apply, val_main_v0_apply, val_main_c_apply]
  have hlt : IntOp.cmpi .slt (x1 (ix2 a b)) 0#32 = 0#1 := by
    unfold IntOp.cmpi
    have : (x1 (ix2 a b)).slt 0#32 = false := by
      rw [Bool.eq_false_iff, ne_eq, BitVec.slt_iff_toInt_lt]
      have : (0#32 : BitVec 32).toInt = 0 := by decide
      omega
    rw [this]; rfl
  rw [hlt]
  rfl

/-- THE REFERENCE'S RESULT is the scaled input, for categories in [0, 1000). -/
theorem ref_eq (x0 : FVec Ideal S128x512x512 .f32) (x1 : IVec S128x512 32) (x3 : FVec Ideal S1000x512 .f32)
    (hcat : ∀ i, 0 ≤ (x1 i).toInt ∧ (x1 i).toInt < 1000) :
    val_main_v11 (F := Ideal) x0 x1 x3 = Cert.Scaled.result x0 x1 x3 := by
  funext i
  obtain ⟨a, b, d, rfl⟩ : ∃ (a : Fin 128) (b : Fin 512) (d : Fin 512), i = ix3 a b d := ⟨i 0, i 1, i 2, eq_ix3 i⟩
  rw [val_main_v11_apply, val_main_v10_apply, val_main_call0_v0_apply, idx_call0, val_main_v9_apply, idx_v9,
    val_main_v8_apply, val_main_v7_apply, val_main_c_1_apply, val_main_call0_v1_apply, val_main_cst_apply]
  have hg : val_main_v6 (F := Ideal) x1 x3 (ix3 a b d)
      = x3 (ix2 (⟨min (x1 (ix2 a b)).toInt.toNat 999, by omega⟩ : Fin 1000) d) := by
    unfold val_main_v6
    show Host.gather (Cert.Lib.RowsGather.rowsDims 1000 512 128 512
        gather_S1000x512_S128x512x1_S128x512x512_2_0_n_n_0_2_1512_wf) x3 (val_main_v5 (F := Ideal) x1) (ix3 a b d) = _
    rw [Cert.Lib.RowsGather.rowsGather_apply (by decide)]
    refine congrArg x3 (congrArg (fun r => ix2 r d) (Fin.ext ?_))
    show min (val_main_v5 (F := Ideal) x1 (ix3 a b (0 : Fin 1))).toInt.toNat (1000 - 1) = min (x1 (ix2 a b)).toInt.toNat 999
    rw [start_eq x1 a b (hcat _).1]
  rw [hg]
  unfold Cert.Scaled.result Cert.Scaled.mult
  show (x0 (ix3 a b d) : EReal) * Scalar.select (IntOp.cmpi .ne (x1 (ix2 a b)) 0#32) _ _ = x0 (ix3 a b d) * _
  refine congrArg (x0 (ix3 a b d) * ·) ?_
  unfold Scalar.select IntOp.cmpi
  by_cases hw : x1 (ix2 a b) = 0#32
  · have hb : (x1 (ix2 a b) != 0#32) = false := by simp [hw]
    rw [if_pos hw, hb]
    rfl
  · have hb : (x1 (ix2 a b) != 0#32) = true := by simpa using hw
    rw [if_neg hw, hb]
    rfl

end Cert.ReferenceIdeal.RefScaled

end
-- ==== Proof.lean ====
/-
  Scaling by a category embedding: the kernel against its jnp reference, over the extended reals.

  Both programs multiply the input at position (a, b), feature d, by a multiplier chosen by the position's category:
  the constant one for the padding category 0, the category's row of the embedding table otherwise.  The reference
  gathers the row and selects; the kernel one-hot encodes the category (category 0 redirected to a row of ones
  appended to the table) and multiplies by the table on the matrix unit.  A one-hot row times the table is the
  selected row: a sum with one nonzero term (zero times anything is zero on the extended reals, so no finiteness is
  used).  The precondition keeps every category in [0, 1000), the rows the table has: outside it the reference wraps
  or clamps an index the kernel sends to the row of ones.

  The frames are the generated ones; the kernel's value is read off its frame run block by block (module Whole), the
  reference's off its generated run (module RefScaled); `preserves` has no ledger entry.
-/
import proofs.«422520_j9019431321846_3_alg».proof.Defs
import proofs.«422520_j9019431321846_3_alg».proof.Proof.Gen.Kernel
import proofs.«422520_j9019431321846_3_alg».proof.Proof.Gen.Kernel.Skeleton
import proofs.«422520_j9019431321846_3_alg».proof.Proof.Gen.Kernel.Launch
import proofs.«422520_j9019431321846_3_alg».proof.Proof.Gen.Kernel.Points
import proofs.«422520_j9019431321846_3_alg».proof.Proof.Gen.Kernel.Frame
import proofs.«422520_j9019431321846_3_alg».proof.Proof.Gen.KernelIdeal
import proofs.«422520_j9019431321846_3_alg».proof.Proof.Gen.KernelIdeal.Skeleton
import proofs.«422520_j9019431321846_3_alg».proof.Proof.Gen.KernelIdeal.Launch
import proofs.«422520_j9019431321846_3_alg».proof.Proof.Gen.KernelIdeal.Points
import proofs.«422520_j9019431321846_3_alg».proof.Proof.Gen.KernelIdeal.Frame
import proofs.«422520_j9019431321846_3_alg».proof.Proof.Gen.ReferenceIdeal
import proofs.«422520_j9019431321846_3_alg».proof.Proof.Gen.ReferenceIdeal.Run
import proofs.«422520_j9019431321846_3_alg».proof.Proof.Gen.ReferenceIdeal.Read
import proofs.«422520_j9019431321846_3_alg».proof.Proof.Gen.Pre_finite_inputs
import proofs.«422520_j9019431321846_3_alg».proof.Proof.CategoryRange
import proofs.«422520_j9019431321846_3_alg».proof.Proof.Whole
import proofs.«422520_j9019431321846_3_alg».proof.Proof.RefScaled
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel (hKernel := Cert.Kernel.Gen.facts) (hPre_finite_inputs := Cert.Pre_finite_inputs.Gen.facts) :=
  fun m ρ _ => Cert.Kernel.Gen.frame m ρ

/-- The idealized kernel runs and keeps its arguments: the generated frame. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its generated run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- Both idealized programs end at the scaled input of arguments that agree: the kernel by its run read block by
    block, the reference by its run read index by index, each under the categories' range, which the precondition
    gives. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hcat : ∀ (c : Dev Cert.KernelIdeal.nD) i,
      0 ≤ (m ((c.tc : Thread Cert.KernelIdeal.nD Cert.KernelIdeal.τ).loc Cert.KernelIdeal.main_arg1) i).toInt
      ∧ (m ((c.tc : Thread Cert.KernelIdeal.nD Cert.KernelIdeal.τ).loc Cert.KernelIdeal.main_arg1) i).toInt < 1000 :=
    fun c => Cert.CategoryRange.of_pre _ _ _ _ (hpre c)
  refine ⟨fun c => Cert.KernelIdeal.Whole.scaled m c, Cert.KernelIdeal.Whole.run m ρ hcat, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq,
    Cert.ReferenceIdeal.RefScaled.ref_eq _ _ _ (by rw [(hagree c).2.1]; exact hcat c)]
  show Cert.Scaled.result _ _ _ = Cert.Scaled.result _ _ _
  rw [(hagree c).1, (hagree c).2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
